-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x12288x16 : Shape := ⟨4, ![8, 4, 12288, 16]⟩
abbrev S1x4 : Shape := ⟨2, ![1, 4]⟩
abbrev S12288x9 : Shape := ⟨2, ![12288, 9]⟩
abbrev S144x1024 : Shape := ⟨2, ![144, 1024]⟩
abbrev S1024 : Shape := ⟨1, ![1024]⟩
abbrev S_ : Shape := ⟨0, ![]⟩

class Facts : Prop where
  bcast_S_S8x4x12288x16 : S_.BroadcastsInDim S8x4x12288x16 (![] : Fin 0 → Fin S8x4x12288x16.rank)
  reducesTo_S8x4x12288x16_S_d0_1_2_3 : S8x4x12288x16.ReducesTo [0, 1, 2, 3] S_
  h_S_ : 0 < S_.numel
  bcast_S_S144x1024 : S_.BroadcastsInDim S144x1024 (![] : Fin 0 → Fin S144x1024.rank)
  reducesTo_S144x1024_S_d0_1 : S144x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x4x12288x16 .f32) (main_arg1 : IVec S1x4 32) (main_arg2 : IVec S12288x9 32) (main_arg3 : FVec F S144x1024 .f32) (main_arg4 : FVec F S1024 .f32) : IVec S_ 1 :=
  let main_v0 : FVec F S8x4x12288x16 .f32 := Host.absf main_arg0
  let main_cst : FVec F S_ .f32 := constant S_ .f32 0x7F800000#32
  let main_v1 : FVec F S8x4x12288x16 .f32 := broadcastInDim S8x4x12288x16 ![] bcast_S_S8x4x12288x16 main_cst
  let main_v2 : IVec S8x4x12288x16 1 := cmpf .olt main_v0 main_v1
  let main_c : IVec S_ 1 := constantI S_ 1 1#1
  let main_v3 : IVec S_ 1 := (fun x v => Host.reduce IntOp.andi x v reducesTo_S8x4x12288x16_S_d0_1_2_3 h_S_) main_v2 main_c
  let main_v4 : FVec F S144x1024 .f32 := Host.absf main_arg3
  let main_cst_0 : FVec F S_ .f32 := constant S_ .f32 0x7F800000#32
  let main_v5 : FVec F S144x1024 .f32 := broadcastInDim S144x1024 ![] bcast_S_S144x1024 main_cst_0
  let main_v6 : IVec S144x1024 1 := cmpf .olt main_v4 main_v5
  let main_c_1 : IVec S_ 1 := constantI S_ 1 1#1
  let main_v7 : IVec S_ 1 := (fun x v => Host.reduce IntOp.andi x v reducesTo_S144x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x4x12288x16 : Shape := ⟨4, ![8, 4, 12288, 16]⟩
abbrev S1x4 : Shape := ⟨2, ![1, 4]⟩
abbrev S12288x9 : Shape := ⟨2, ![12288, 9]⟩
abbrev S144x1024 : Shape := ⟨2, ![144, 1024]⟩
abbrev S1024 : Shape := ⟨1, ![1024]⟩
abbrev S_ : Shape := ⟨0, ![]⟩
abbrev S1x4x1 : Shape := ⟨3, ![1, 4, 1]⟩
abbrev S1x4x4x12288x16 : Shape := ⟨5, ![1, 4, 4, 12288, 16]⟩
abbrev S12288x9x1 : Shape := ⟨3, ![12288, 9, 1]⟩
abbrev S1x4x4x12288x9x16 : Shape := ⟨6, ![1, 4, 4, 12288, 9, 16]⟩
abbrev S196608x144 : Shape := ⟨2, ![196608, 144]⟩
abbrev S196608x1024 : Shape := ⟨2, ![196608, 1024]⟩
abbrev S2048x144 : Shape := ⟨2, ![2048, 144]⟩
abbrev S2048x1024 : Shape := ⟨2, ![2048, 1024]⟩
abbrev S1x1024 : Shape := ⟨2, ![1, 1024]⟩
abbrev S1x4x4x196608x64 : Shape := ⟨5, ![1, 4, 4, 196608, 64]⟩

abbrev nBuf : Space → Nat
  | .hbm => 26
  | .vmem => 6
  | .smem => 0
  | _ => 0

abbrev bufTy : (tb : Table) → Fin (tcTables nBuf tb) → BufTy
  | .hbm, ⟨0, _⟩ => ⟨S8x4x12288x16, .f32⟩
  | .hbm, ⟨1, _⟩ => ⟨S1x4, .i32⟩
  | .hbm, ⟨2, _⟩ => ⟨S12288x9, .i32⟩
  | .hbm, ⟨3, _⟩ => ⟨S144x1024, .f32⟩
  | .hbm, ⟨4, _⟩ => ⟨S1024, .f32⟩
  | .hbm, ⟨5, _⟩ => ⟨S_, .i32⟩
  | .hbm, ⟨6, _⟩ => ⟨S1x4, .i32⟩
  | .hbm, ⟨7, _⟩ => ⟨S1x4, .i1⟩
  | .hbm, ⟨8, _⟩ => ⟨S_, .i32⟩
  | .hbm, ⟨9, _⟩ => ⟨S1x4, .i32⟩
  | .hbm, ⟨10, _⟩ => ⟨S1x4, .i32⟩
  | .hbm, ⟨11, _⟩ => ⟨S1x4, .i32⟩
  | .hbm, ⟨12, _⟩ => ⟨S1x4x1, .i32⟩
  | .hbm, ⟨13, _⟩ => ⟨S1x4x4x12288x16, .f32⟩
  | .hbm, ⟨14, _⟩ => ⟨S_, .i32⟩
  | .hbm, ⟨15, _⟩ => ⟨S12288x9, .i32⟩
  | .hbm, ⟨16, _⟩ => ⟨S12288x9, .i1⟩
  | .hbm, ⟨17, _⟩ => ⟨S_, .i32⟩
  | .hbm, ⟨18, _⟩ => ⟨S12288x9, .i32⟩
  | .hbm, ⟨19, _⟩ => ⟨S12288x9, .i32⟩
  | .hbm, ⟨20, _⟩ => ⟨S12288x9, .i32⟩
  | .hbm, ⟨21, _⟩ => ⟨S12288x9x1, .i32⟩
  | .hbm, ⟨22, _⟩ => ⟨S1x4x4x12288x9x16, .f32⟩
  | .hbm, ⟨23, _⟩ => ⟨S196608x144, .f32⟩
  | .hbm, ⟨24, _⟩ => ⟨S196608x1024, .f32⟩
  | .hbm, ⟨25, _⟩ => ⟨S1x4x4x196608x64, .f32⟩
  | .local _ .vmem, ⟨0, _⟩ => ⟨S2048x144, .f32⟩
  | .local _ .vmem, ⟨1, _⟩ => ⟨S2048x144, .f32⟩
  | .local _ .vmem, ⟨2, _⟩ => ⟨S144x1024, .f32⟩
  | .local _ .vmem, ⟨3, _⟩ => ⟨S1024, .f32⟩
  | .local _ .vmem, ⟨4, _⟩ => ⟨S2048x1024, .f32⟩
  | .local _ .vmem, ⟨5, _⟩ => ⟨S2048x1024, .f32⟩
  | _, _ => ⟨S8x4x12288x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S144x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1x4 : S_.BroadcastsInDim S1x4 (![] : Fin 0 → Fin S1x4.rank)
  bcast_S1x4_S1x4x1_0_1 : S1x4.BroadcastsInDim S1x4x1 (![0, 1] : Fin 2 → Fin S1x4x1.rank)
  bcast_S_S12288x9 : S_.BroadcastsInDim S12288x9 (![] : Fin 0 → Fin S12288x9.rank)
  bcast_S12288x9_S12288x9x1_0_1 : S12288x9.BroadcastsInDim S12288x9x1 (![0, 1] : Fin 2 → Fin S12288x9x1.rank)
  shapeCasts_S1x4x4x12288x9x16_S196608x144 : S1x4x4x12288x9x16.ShapeCasts S196608x144
  inb_S2048x144_S2048x144_0_0 : ∀ a, (![0, 0] : Fin 2 → Nat) a + S2048x144.size a ≤ S2048x144.size a
  h_S2048x144 : 0 < S2048x144.numel
  shapeCasts_S2048x144_S2048x144 : S2048x144.ShapeCasts S2048x144
  bitsLt_bf16_f32 : FTy.bits .bf16 < FTy.bits .f32
  inb_S144x1024_S144x1024_0_0 : ∀ a, (![0, 0] : Fin 2 → Nat) a + S144x1024.size a ≤ S144x1024.size a
  h_S144x1024 : 0 < S144x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S196608x1024_S1x4x4x196608x64 : S196608x1024.ShapeCasts S1x4x4x196608x64
  gather_S8x4x12288x16_S1x4x1_S1x4x4x12288x16_234_0_n_n_0_2_141228816_wf : GatherDims.WF S8x4x12288x16 S1x4x1 S1x4x4x12288x16 [2, 3, 4] [0] [] [0] [] 2 ![1, 4, 12288, 16]
  gather_S1x4x4x12288x16_S12288x9x1_S1x4x4x12288x9x16_0125_3_n_n_3_2_144116_wf : GatherDims.WF S1x4x4x12288x16 S12288x9x1 S1x4x4x12288x9x16 [0, 1, 2, 5] [3] [] [3] [] 2 ![1, 4, 4, 1, 16]
  dot_S2048x144_S144x1024_S2048x1024_1_0_0_1_n_n_wf : DotDims.WF S2048x144 S144x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x144.size a ≤ S196608x144.size a
  hwx0_0 : ∀ i : grid0.Coords, EltTy.bits .f32 = 32 ∨ (Rect.block (s := S196608x144) S2048x144.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S144x1024.size a ≤ S144x1024.size a
  hwx0_1 : ∀ i : grid0.Coords, EltTy.bits .f32 = 32 ∨ (Rect.block (s := S144x1024) S144x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S196608x1024.size a
  hwx0_3 : ∀ i : grid0.Coords, EltTy.bits .f32 = 32 ∨ (Rect.block (s := S196608x1024) S2048x1024.size (cc0_transform_3 i) (hinb0_3 i)).WholeWords (EltTy.packing .f32)

variable [Facts₀]

def gather_S8x4x12288x16_S1x4x1_S1x4x4x12288x16_234_0_n_n_0_2_141228816 : GatherDims S8x4x12288x16 S1x4x1 S1x4x4x12288x16 where
  offsetDims := [2, 3, 4]
  collapsedSliceDims := [0]
  operandBatchingDims := []
  startIndicesBatchingDims := []
  startIndexMap := [0]
  indexVectorDim := 2
  sliceSizes := ![1, 4, 12288, 16]
  wf := gather_S8x4x12288x16_S1x4x1_S1x4x4x12288x16_234_0_n_n_0_2_141228816_wf
def gather_S1x4x4x12288x16_S12288x9x1_S1x4x4x12288x9x16_0125_3_n_n_3_2_144116 : GatherDims S1x4x4x12288x16 S12288x9x1 S1x4x4x12288x9x16 where
  offsetDims := [0, 1, 2, 5]
  collapsedSliceDims := [3]
  operandBatchingDims := []
  startIndicesBatchingDims := []
  startIndexMap := [3]
  indexVectorDim := 2
  sliceSizes := ![1, 4, 4, 1, 16]
  wf := gather_S1x4x4x12288x16_S12288x9x1_S1x4x4x12288x9x16_0125_3_n_n_3_2_144116_wf
def dot_S2048x144_S144x1024_S2048x1024_1_0_0_1_n_n : DotDims S2048x144 S144x1024 S2048x1024 where
  lhsContracting := [1]
  rhsContracting := [0]
  lhsNonContracting := [0]
  rhsNonContracting := [1]
  lhsBatch := []
  rhsBatch := []
  wf := dot_S2048x144_S144x1024_S2048x1024_1_0_0_1_n_n_wf

abbrev win0_0 : Pipeline.Window sig grid0 :=
  Pipeline.Window.ofSpec (Memref.whole main_v14) S2048x144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S144x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4x12288x16 : Shape := ⟨4, ![8, 4, 12288, 16]⟩
abbrev S1x4 : Shape := ⟨2, ![1, 4]⟩
abbrev S12288x9 : Shape := ⟨2, ![12288, 9]⟩
abbrev S144x1024 : Shape := ⟨2, ![144, 1024]⟩
abbrev S1024 : Shape := ⟨1, ![1024]⟩
abbrev S_ : Shape := ⟨0, ![]⟩
abbrev S1x4x1 : Shape := ⟨3, ![1, 4, 1]⟩
abbrev S1x4x4x12288x16 : Shape := ⟨5, ![1, 4, 4, 12288, 16]⟩
abbrev S12288x9x1 : Shape := ⟨3, ![12288, 9, 1]⟩
abbrev S1x4x4x12288x9x16 : Shape := ⟨6, ![1, 4, 4, 12288, 9, 16]⟩
abbrev S1x4x4x12288x144 : Shape := ⟨5, ![1, 4, 4, 12288, 144]⟩
abbrev S1x4x4x12288x1024 : Shape := ⟨5, ![1, 4, 4, 12288, 1024]⟩
abbrev S1x1x1x1x1024 : Shape := ⟨5, ![1, 1, 1, 1, 1024]⟩
abbrev S1x4x4x196608x64 : Shape := ⟨5, ![1, 4, 4, 196608, 64]⟩

abbrev nBuf : Space → Nat
  | .hbm => 29
  | .vmem => 0
  | .smem => 0
  | _ => 0

abbrev bufTy : (tb : Table) → Fin (tcTables nBuf tb) → BufTy
  | .hbm, ⟨0, _⟩ => ⟨S8x4x12288x16, .f32⟩
  | .hbm, ⟨1, _⟩ => ⟨S1x4, .i32⟩
  | .hbm, ⟨2, _⟩ => ⟨S12288x9, .i32⟩
  | .hbm, ⟨3, _⟩ => ⟨S144x1024, .f32⟩
  | .hbm, ⟨4, _⟩ => ⟨S1024, .f32⟩
  | .hbm, ⟨5, _⟩ => ⟨S_, .i32⟩
  | .hbm, ⟨6, _⟩ => ⟨S1x4, .i32⟩
  | .hbm, ⟨7, _⟩ => ⟨S1x4, .i1⟩
  | .hbm, ⟨8, _⟩ => ⟨S_, .i32⟩
  | .hbm, ⟨9, _⟩ => ⟨S1x4, .i32⟩
  | .hbm, ⟨10, _⟩ => ⟨S1x4, .i32⟩
  | .hbm, ⟨11, _⟩ => ⟨S1x4, .i32⟩
  | .hbm, ⟨12, _⟩ => ⟨S1x4x1, .i32⟩
  | .hbm, ⟨13, _⟩ => ⟨S1x4x4x12288x16, .f32⟩
  | .hbm, ⟨14, _⟩ => ⟨S_, .i32⟩
  | .hbm, ⟨15, _⟩ => ⟨S12288x9, .i32⟩
  | .hbm, ⟨16, _⟩ => ⟨S12288x9, .i1⟩
  | .hbm, ⟨17, _⟩ => ⟨S_, .i32⟩
  | .hbm, ⟨18, _⟩ => ⟨S12288x9, .i32⟩
  | .hbm, ⟨19, _⟩ => ⟨S12288x9, .i32⟩
  | .hbm, ⟨20, _⟩ => ⟨S12288x9, .i32⟩
  | .hbm, ⟨21, _⟩ => ⟨S12288x9x1, .i32⟩
  | .hbm, ⟨22, _⟩ => ⟨S1x4x4x12288x9x16, .f32⟩
  | .hbm, ⟨23, _⟩ => ⟨S1x4x4x12288x144, .f32⟩
  | .hbm, ⟨24, _⟩ => ⟨S1x4x4x12288x1024, .f32⟩
  | .hbm, ⟨25, _⟩ => ⟨S1x1x1x1x1024, .f32⟩
  | .hbm, ⟨26, _⟩ => ⟨S1x4x4x12288x1024, .f32⟩
  | .hbm, ⟨27, _⟩ => ⟨S1x4x4x12288x1024, .f32⟩
  | .hbm, ⟨28, _⟩ => ⟨S1x4x4x196608x64, .f32⟩
  | _, _ => ⟨S8x4x12288x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S1x4 : S_.BroadcastsInDim S1x4 (![] : Fin 0 → Fin S1x4.rank)
  bcast_S1x4_S1x4x1_0_1 : S1x4.BroadcastsInDim S1x4x1 (![0, 1] : Fin 2 → Fin S1x4x1.rank)
  bcast_S_S12288x9 : S_.BroadcastsInDim S12288x9 (![] : Fin 0 → Fin S12288x9.rank)
  bcast_S12288x9_S12288x9x1_0_1 : S12288x9.BroadcastsInDim S12288x9x1 (![0, 1] : Fin 2 → Fin S12288x9x1.rank)
  shapeCasts_S1x4x4x12288x9x16_S1x4x4x12288x144 : S1x4x4x12288x9x16.ShapeCasts S1x4x4x12288x144
  bcast_S1024_S1x1x1x1x1024_4 : S1024.BroadcastsInDim S1x1x1x1x1024 (![4] : Fin 1 → Fin S1x1x1x1x1024.rank)
  bcast_S1x1x1x1x1024_S1x4x4x12288x1024_0_1_2_3_4 : S1x1x1x1x1024.BroadcastsInDim S1x4x4x12288x1024 (![0, 1, 2, 3, 4] : Fin 5 → Fin S1x4x4x12288x1024.rank)
  shapeCasts_S1x4x4x12288x1024_S1x4x4x196608x64 : S1x4x4x12288x1024.ShapeCasts S1x4x4x196608x64
  gather_S8x4x12288x16_S1x4x1_S1x4x4x12288x16_234_0_n_n_0_2_141228816_wf : GatherDims.WF S8x4x12288x16 S1x4x1 S1x4x4x12288x16 [2, 3, 4] [0] [] [0] [] 2 ![1, 4, 12288, 16]
  gather_S1x4x4x12288x16_S12288x9x1_S1x4x4x12288x9x16_0125_3_n_n_3_2_144116_wf : GatherDims.WF S1x4x4x12288x16 S12288x9x1 S1x4x4x12288x9x16 [0, 1, 2, 5] [3] [] [3] [] 2 ![1, 4, 4, 1, 16]
  dot_S1x4x4x12288x144_S144x1024_S1x4x4x12288x1024_4_0_0123_1_n_n_wf : DotDims.WF S1x4x4x12288x144 S144x1024 S1x4x4x12288x1024 [4] [0] [0, 1, 2, 3] [1] [] []

variable [Facts₀]

def gather_S8x4x12288x16_S1x4x1_S1x4x4x12288x16_234_0_n_n_0_2_141228816 : GatherDims S8x4x12288x16 S1x4x1 S1x4x4x12288x16 where
  offsetDims := [2, 3, 4]
  collapsedSliceDims := [0]
  operandBatchingDims := []
  startIndicesBatchingDims := []
  startIndexMap := [0]
  indexVectorDim := 2
  sliceSizes := ![1, 4, 12288, 16]
  wf := gather_S8x4x12288x16_S1x4x1_S1x4x4x12288x16_234_0_n_n_0_2_141228816_wf
def gather_S1x4x4x12288x16_S12288x9x1_S1x4x4x12288x9x16_0125_3_n_n_3_2_144116 : GatherDims S1x4x4x12288x16 S12288x9x1 S1x4x4x12288x9x16 where
  offsetDims := [0, 1, 2, 5]
  collapsedSliceDims := [3]
  operandBatchingDims := []
  startIndicesBatchingDims := []
  startIndexMap := [3]
  indexVectorDim := 2
  sliceSizes := ![1, 4, 4, 1, 16]
  wf := gather_S1x4x4x12288x16_S12288x9x1_S1x4x4x12288x9x16_0125_3_n_n_3_2_144116_wf
def dot_S1x4x4x12288x144_S144x1024_S1x4x4x12288x1024_4_0_0123_1_n_n : DotDims S1x4x4x12288x144 S144x1024 S1x4x4x12288x1024 where
  lhsContracting := [4]
  rhsContracting := [0]
  lhsNonContracting := [0, 1, 2, 3]
  rhsNonContracting := [1]
  lhsBatch := []
  rhsBatch := []
  wf := dot_S1x4x4x12288x144_S144x1024_S1x4x4x12288x1024_4_0_0123_1_n_n_wf

class Facts : Prop extends Facts₀ where

variable [Facts]
-- ==== Proof.BlockProduct.lean ====
/-
  One grid point of the patch MLP. The body loads a [2048, 144] block of flattened neighbourhood patches, the
  whole [144, 1024] weight matrix and the [1024] bias, and stores

      block · W + bias        (the bias row repeated down the 2048 rows).

  At the ideal instance the two casts to bf16 are identities and the matrix unit's product into a zero
  accumulator is the plain sum over the 144 contracted positions, so the stored value at row p and column q is
  ∑ k, block (p, k) · W (k, q) + bias q.
-/
import proofs.«108473_j24103356465172_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-! ## The product's operand indices, axis by axis -/

/-- The left operand is read in the output's row. -/
theorem lhs_row (i : S2048x1024.Idx) (q : dot_S2048x144_S144x1024_S2048x1024_1_0_0_1_n_n.contr.Idx) :
    (dot_S2048x144_S144x1024_S2048x1024_1_0_0_1_n_n.lhsIdx i q 0).val = (i 0).val := by
  unfold DotDims.lhsIdx
  rw [dif_neg (show ¬(0 : Fin S2048x144.rank) ∈ dot_S2048x144_S144x1024_S2048x1024_1_0_0_1_n_n.lhsBatch by decide), dif_pos (show (0 : Fin S2048x144.rank) ∈ dot_S2048x144_S144x1024_S2048x1024_1_0_0_1_n_n.lhsNonContracting by decide)]
  rfl
/-- The left operand's column is the contracted position. -/
theorem lhs_col (i : S2048x1024.Idx) (q : dot_S2048x144_S144x1024_S2048x1024_1_0_0_1_n_n.contr.Idx) :
    (dot_S2048x144_S144x1024_S2048x1024_1_0_0_1_n_n.lhsIdx i q 1).val = (q ⟨0, by decide⟩).val :=
  dot_S2048x144_S144x1024_S2048x1024_1_0_0_1_n_n.lhsIdx_val_of_single rfl i q
/-- The right operand's row is the contracted position. -/
theorem rhs_row (i : S2048x1024.Idx) (q : dot_S2048x144_S144x1024_S2048x1024_1_0_0_1_n_n.contr.Idx) :
    (dot_S2048x144_S144x1024_S2048x1024_1_0_0_1_n_n.rhsIdx i q 0).val = (q ⟨0, by decide⟩).val :=
  dot_S2048x144_S144x1024_S2048x1024_1_0_0_1_n_n.rhsIdx_val_of_single rfl i q
/-- The right operand is read in the output's column. -/
theorem rhs_col (i : S2048x1024.Idx) (q : dot_S2048x144_S144x1024_S2048x1024_1_0_0_1_n_n.contr.Idx) :
    (dot_S2048x144_S144x1024_S2048x1024_1_0_0_1_n_n.rhsIdx i q 1).val = (i 1).val := by
  unfold DotDims.rhsIdx
  rw [dif_neg (show ¬(1 : Fin S144x1024.rank) ∈ dot_S2048x144_S144x1024_S2048x1024_1_0_0_1_n_n.rhsBatch by decide), dif_pos (show (1 : Fin S144x1024.rank) ∈ dot_S2048x144_S144x1024_S2048x1024_1_0_0_1_n_n.rhsNonContracting by decide)]
  rfl

/-! ## The product and the bias row at an index -/

/-- The matrix product into the zero accumulator, entry (p, q): the sum over the 144 contracted positions. -/
theorem product_apply (a : FVec Ideal S2048x144 .bf16) (w : FVec Ideal S144x1024 .bf16) (p : Fin 2048) (q : Fin 1024) :
    matmul dot_S2048x144_S144x1024_S2048x1024_1_0_0_1_n_n none a w (constant (F := Ideal) S2048x1024 .f32 0x00000000#32) (ix2 p q)
      = ∑ k : Fin 144, a (ix2 p k) * w (ix2 k q) := by
  show FloatOps.matmul dot_S2048x144_S144x1024_S2048x1024_1_0_0_1_n_n none a w (constant (F := Ideal) S2048x1024 .f32 0x00000000#32) (ix2 p q) = _
  rw [Ideal.matmul_constant_zero_apply, ← Equiv.sum_comp (ValueIdx.contrEquiv1 dot_S2048x144_S144x1024_S2048x1024_1_0_0_1_n_n 144 rfl rfl).symm]
  refine Finset.sum_congr rfl fun k _ => ?_
  have hk := ValueIdx.contrEquiv1_symm_val dot_S2048x144_S144x1024_S2048x1024_1_0_0_1_n_n 144 rfl rfl k
  have el : dot_S2048x144_S144x1024_S2048x1024_1_0_0_1_n_n.lhsIdx (ix2 p q) ((ValueIdx.contrEquiv1 dot_S2048x144_S144x1024_S2048x1024_1_0_0_1_n_n 144 rfl rfl).symm k) = ix2 p k := funext fun ax => Fin.ext (by
    match ax with
    | ⟨0, _⟩ => exact lhs_row _ _
    | ⟨1, _⟩ => exact (lhs_col _ _).trans hk)
  have er : dot_S2048x144_S144x1024_S2048x1024_1_0_0_1_n_n.rhsIdx (ix2 p q) ((ValueIdx.contrEquiv1 dot_S2048x144_S144x1024_S2048x1024_1_0_0_1_n_n 144 rfl rfl).symm k) = ix2 k q := funext fun ax => Fin.ext (by
    match ax with
    | ⟨0, _⟩ => exact (rhs_row _ _).trans hk
    | ⟨1, _⟩ => exact rhs_col _ _)
  rw [el, er]

/-- The bias, cast to one row and repeated down the rows, reads the bias at the column. -/
theorem bias_apply (b : Vec Ideal S1024 .f32) (p : Fin 2048) (q : Fin 1024) :
    broadcastTo S2048x1024 (shapeCast S1x1024 b shapeCasts_S1024_S1x1024) broadcasts_S1x1024_S2048x1024 (ix2 p q) = b (ix1 q) := by
  rw [broadcastTo_1b_ab_apply, shapeCast_a_1a_apply]

/-- THE STORED VALUE at row p, column q. -/
theorem pay_apply (x : Vec Ideal S2048x144 .f32) (w : Vec Ideal S144x1024 .f32) (b : Vec Ideal S1024 .f32) (p : Fin 2048) (q : Fin 1024) :
    k0_pay1 (F := Ideal) x w b (ix2 p q) = (∑ k : Fin 144, x (ix2 p k) * w (ix2 k q)) + b (ix1 q) := by
  unfold k0_pay1
  rw [addf_apply, product_apply, bias_apply]
  refine congrArg (· + b (ix1 q)) (Finset.sum_congr rfl fun k _ => ?_)
  rw [truncf_apply, truncf_apply, shapeCast_self]

end Cert.KernelIdeal.BlockProduct

end
-- ==== Proof.PatchMlpSpec.lean ====
/-
  The patch MLP as one function of its operands, over the extended reals.

  The gathered neighbourhood tensor X has shape [1, 4, 4, 12288, 9, 16]: for each (batch, variable, time, cell) the
  9 neighbours' 16 channels. Flattened row-major it is a matrix of 196608 rows (one per batch, variable, time and
  cell) by 144 columns (neighbour × channel). The MLP is

      rows · W + bias,        entry (r, o) = ∑ k < 144, rows (r, k) · W (k, o) + bias o,

  a [196608, 1024] matrix, and the result is that matrix viewed row-major as [1, 4, 4, 196608, 64].
-/
import Idealize.ShloMosaic.PureOps.Ideal
import Idealize.ShloMosaic.Lib.ValueIdx
import Idealize.ShloMosaic.Lib.Pipeline.Value

noncomputable section

namespace Cert.PatchMlp

open Idealize.ShloMosaic Idealize.ShloMosaic.ValueIdx

abbrev SGathered : Shape := ⟨6, ![1, 4, 4, 12288, 9, 16]⟩
abbrev SRows : Shape := ⟨2, ![196608, 144]⟩
abbrev SWeights : Shape := ⟨2, ![144, 1024]⟩
abbrev SBias : Shape := ⟨1, ![1024]⟩
abbrev SProduct : Shape := ⟨2, ![196608, 1024]⟩
abbrev SResult : Shape := ⟨5, ![1, 4, 4, 196608, 64]⟩

/-- rows · W + bias: entry (r, o) is the sum over the 144 flattened (neighbour, channel) positions, plus the bias. -/
def affine (rows : SRows.Idx → EReal) (w : SWeights.Idx → EReal) (b : SBias.Idx → EReal) : SProduct.Idx → EReal :=
  fun i => (∑ k : Fin 144, rows (ix2 (i 0 : Fin 196608) k) * w (ix2 k (i 1 : Fin 1024))) + b (ix1 (i 1 : Fin 1024))

theorem gathered_rows : SGathered.ShapeCasts SRows := by decide
theorem product_result : SProduct.ShapeCasts SResult := by decide

/-- The whole MLP of the gathered tensor: flatten to rows, multiply and add the bias, view as the result shape. -/
def mlp (X : SGathered.Idx → EReal) (w : SWeights.Idx → EReal) (b : SBias.Idx → EReal) : SResult.Idx → EReal :=
  shapeCast SResult (affine (shapeCast SRows X gathered_rows) w b) product_result

/-- Entry (r, o) of rows · W + bias. -/
theorem affine_apply (rows : SRows.Idx → EReal) (w : SWeights.Idx → EReal) (b : SBias.Idx → EReal) (r : Fin 196608) (o : Fin 1024) :
    affine rows w b (ix2 r o) = (∑ k : Fin 144, rows (ix2 r k) * w (ix2 k o)) + b (ix1 o) := rfl

/-- The row-major position of an index of the result shape. -/
abbrev pos (i : SResult.Idx) : Nat := ((((i 0).val * 4 + (i 1).val) * 4 + (i 2).val) * 196608 + (i 3).val) * 64 + (i 4).val

theorem pos_lt (i : SResult.Idx) : pos i < 201326592 := by
  have h0 : (i 0).val < 1 := (i 0).isLt
  have h1 : (i 1).val < 4 := (i 1).isLt
  have h2 : (i 2).val < 4 := (i 2).isLt
  have h3 : (i 3).val < 196608 := (i 3).isLt
  have h4 : (i 4).val < 64 := (i 4).isLt
  show ((((i 0).val * 4 + (i 1).val) * 4 + (i 2).val) * 196608 + (i 3).val) * 64 + (i 4).val < 201326592
  omega

/-- The matrix row an index of the result lies in: its position divided by the row length 1024. -/
abbrev rowOf (i : SResult.Idx) : Fin 196608 := ⟨pos i / 1024, by have := pos_lt i; omega⟩
/-- And its column: the remainder. -/
abbrev colOf (i : SResult.Idx) : Fin 1024 := ⟨pos i % 1024, Nat.mod_lt _ (by decide)⟩

/-- THE RESULT AT AN INDEX: the entry of rows · W + bias at the index's matrix row and column. -/
theorem mlp_apply (X : SGathered.Idx → EReal) (w : SWeights.Idx → EReal) (b : SBias.Idx → EReal) (i : SResult.Idx) :
    mlp X w b i = (∑ k : Fin 144, shapeCast SRows X gathered_rows (ix2 (rowOf i) k) * w (ix2 k (colOf i))) + b (ix1 (colOf i)) := by
  unfold mlp
  rw [shapeCast_apply _ product_result i (ix2 (rowOf i) (colOf i)) (by
    rw [Shape.rowMajor_val_two, Shape.rowMajor_val_five]
    show pos i / 1024 * 1024 + pos i % 1024 = pos i
    omega)]
  rfl

end Cert.PatchMlp

end
-- ==== Proof.KernelArray.lean ====
/-
  From blocks to the array. Grid point t of the 96 loads rows 2048 t … 2048 t + 2047 of the flattened patches,
  the whole weight matrix and the whole bias, and writes back rows 2048 t … 2048 t + 2047 of the product. Each
  written block is therefore the restriction of ONE matrix, rows · W + bias of the whole arrays, and the 96 row
  blocks tile the [196608, 1024] output: after the region the output array is that matrix.
-/
import proofs.«108473_j24103356465172_1_alg».proof.Proof.Gen.KernelIdeal.Frame
import proofs.«108473_j24103356465172_1_alg».proof.Proof.BlockProduct
import proofs.«108473_j24103356465172_1_alg».proof.Proof.PatchMlpSpec
import Idealize.ShloMosaic.Lib.Pipeline.Value
import Idealize.ShloMosaic.Lib.Tactic

set_option maxRecDepth 16384

noncomputable section

namespace Cert.KernelIdeal.ArrayValue

open Cert.KernelIdeal Cert.KernelIdeal.Gen Idealize.ShloMosaic Idealize.ShloMosaic.TcCoe Idealize.ShloMosaic.ValueIdx Idealize.SL.Sem
open Idealize.ShloMosaic.Pipeline (Dat)
open Cert.PatchMlp (affine)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The three operand arrays as the region finds them, at their literal types. -/
abbrev rowsArr (c : Dev nD) : Vec Ideal S196608x144 .f32 := V m c main_v14
abbrev wArr (c : Dev nD) : Vec Ideal S144x1024 .f32 := V m c main_arg3
abbrev bArr (c : Dev nD) : Vec Ideal S1024 .f32 := V m c main_arg4

/-- The index maps over the grid: point t takes row block t of the patches and of the output, and block 0 of
    everything else. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) = t.val :=
  (by decide +kernel : ∀ t : Fin grid0.N, _)

/-- WHAT POINT t WRITES BACK is block t of rows · W + bias of the whole arrays. -/
theorem flushed_eq (c : Dev nD) (t : Fin cfg0.N) :
    (dats m 0 c).flushed 3 t = ((cfg0.win 3).blk t).view.read (Elt Ideal) (affine (rowsArr m c) (wArr m c) (bArr m c)) := by
  show (cfg0.win 3).cut (grid0.coords t) ((dats m 0 c).after 3 t) = _
  rw [after0_3]
  unfold out0_3
  rw [View.canon_unit_zero hz2]
  simp only [View.ld_unit_zero (S := S2048x144) hz2, View.ld_unit_zero (S := S144x1024) hz2, View.ld_unit_zero (S := S1024) hz1]
  obtain ⟨e0, e1, e2, e3, e4, e5, e6⟩ := idx_facts t
  funext j
  obtain ⟨p, q, rfl⟩ : ∃ (p : Fin 2048) (q : Fin 1024), j = ix2 p q := ⟨j 0, j 1, eq_ix2 j⟩
  refine (BlockProduct.pay_apply (iblk m c 0 t) (iblk m c 1 t) (iblk m c 2 t) p q).trans ?_
  have ht : t.val < 96 := lt_of_lt_of_eq t.isLt (show cfg0.N = 96 from N_0)
  -- the row of the whole matrix that row p of block t is
  let r : Fin 196608 := ⟨t.val * 2048 + p.val, by have := p.isLt; omega⟩
  have hout : ((cfg0.win 3).blk t).view.emb (ix2 p q) = (ix2 r q : S196608x1024.Idx) := by
    funext a; apply Fin.ext
    match a with
    | ⟨0, _⟩ => show win0_3.index t (0 : Fin 2) * 2048 + 1 * p.val = t.val * 2048 + p.val; omega
    | ⟨1, _⟩ => show win0_3.index t (1 : Fin 2) * 1024 + 1 * q.val = q.val; omega
  have hx : ∀ k : Fin 144, ((cfg0.win 0).blk t).view.emb (ix2 p k) = (ix2 r k : S196608x144.Idx) := fun k => by
    funext a; apply Fin.ext
    match a with
    | ⟨0, _⟩ => show win0_0.index t (0 : Fin 2) * 2048 + 1 * p.val = t.val * 2048 + p.val; omega
    | ⟨1, _⟩ => show win0_0.index t (1 : Fin 2) * 144 + 1 * k.val = k.val; omega
  have hw : ∀ k : Fin 144, ((cfg0.win 1).blk t).view.emb (ix2 k q) = (ix2 k q : S144x1024.Idx) := fun k => by
    funext a; apply Fin.ext
    match a with
    | ⟨0, _⟩ => show win0_1.index t (0 : Fin 2) * 144 + 1 * k.val = k.val; omega
    | ⟨1, _⟩ => show win0_1.index t (1 : Fin 2) * 1024 + 1 * q.val = q.val; omega
  have hb : ((cfg0.win 2).blk t).view.emb (ix1 q) = (ix1 q : S1024.Idx) := by
    funext a; apply Fin.ext
    match a with
    | ⟨0, _⟩ => show win0_2.index t (0 : Fin 1) * 1024 + 1 * q.val = q.val; omega
  rw [View.read_apply, hout]
  show (∑ k : Fin 144, rowsArr m c (((cfg0.win 0).blk t).view.emb (ix2 p k)) * wArr m c (((cfg0.win 1).blk t).view.emb (ix2 k q)))
      + bArr m c (((cfg0.win 2).blk t).view.emb (ix1 q))
    = (∑ k : Fin 144, rowsArr m c (ix2 r k) * wArr m c (ix2 k q)) + bArr m c (ix1 q)
  rw [hb]
  refine congrArg (· + bArr m c (ix1 q)) (Finset.sum_congr rfl fun k _ => ?_)
  rw [hx k, hw k]

/-- An index of the output array is in point t's block iff each coordinate is in the block's range on its axis. -/
theorem mem_blk (t : Fin cfg0.N) (i : S196608x1024.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v15).slice (win0_3.rect t)).set ↔ _
  rw [View.set_slice_whole, Rect.mem_set_unit]
  exact Iff.rfl

/-- The 96 row blocks tile the output: row i₀ is in the block of point i₀ / 2048. -/
theorem cover (i : S196608x1024.Idx) : ∃ t : Fin cfg0.N, (cfg0.win 3).flush t = true ∧ i ∈ ((cfg0.win 3).blk t).view.set := by
  have hi0 : (i 0).val < 196608 := (i 0).isLt
  have hi1 : (i 1).val < 1024 := (i 1).isLt
  have hN : cfg0.N = 96 := N_0
  obtain ⟨t, ht⟩ : ∃ t : Fin cfg0.N, t.val = (i 0).val / 2048 := ⟨⟨(i 0).val / 2048, by rw [hN]; omega⟩, rfl⟩
  obtain ⟨-, -, -, -, -, e5, e6⟩ := idx_facts t
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-- THE OUTPUT ARRAY after the region: rows · W + bias of the arrays the region found. -/
theorem final (c : Dev nD) : (dats m 0 c).arrAt 3 cfg0.N = affine (rowsArr m c) (wArr m c) (bArr m c) :=
  (dats m 0 c).arrAt_eq_of_cover 3 (affine (rowsArr m c) (wArr m c) (bArr m c)) (fun t _ => flushed_eq m c t) cover

end Cert.KernelIdeal.ArrayValue

end
-- ==== Proof.KernelRun.lean ====
/-
  The kernel program's run, read. Before the region the host lines select 4 of the 8 variables' embeddings, gather
  each cell's 9 neighbours (negative indices wrapped by the axis length first) and flatten the
  result to the 196608 × 144 rows; the region computes rows · W + bias; the one host line after it views the matrix
  as [1, 4, 4, 196608, 64]. So the result is the patch MLP of the gathered tensor.
-/
import proofs.«108473_j24103356465172_1_alg».proof.Proof.KernelArray
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat)
open Cert.PatchMlp (affine mlp)

variable (m : (ℓ : Loc nD τ sig) → Buf (Elt Ideal) ℓ) (ρ : Dev nD → PrngReg)

/-- The gathered neighbourhood tensor as a function of the embeddings, the variable indices and the adjacency:
    an index below zero is first moved up by the axis length (8 variables, 12288 cells), then the variables'
    embeddings are selected and each cell's neighbours gathered. -/
def gathered (x0 : (⟨S8x4x12288x16, .f32⟩ : BufTy).Contents (Elt Ideal)) (x1 : (⟨S1x4, .i32⟩ : BufTy).Contents (Elt Ideal))
    (x2 : (⟨S12288x9, .i32⟩ : BufTy).Contents (Elt Ideal)) : (⟨S1x4x4x12288x9x16, .f32⟩ : BufTy).Contents (Elt Ideal) :=
  Host.gather gather_S1x4x4x12288x16_S12288x9x1_S1x4x4x12288x9x16_0125_3_n_n_3_2_144116
    (Host.gather gather_S8x4x12288x16_S1x4x1_S1x4x4x12288x16_234_0_n_n_0_2_141228816 x0
      (broadcastInDim S1x4x1 ![0, 1] bcast_S1x4_S1x4x1_0_1 (select (cmpi .slt x1 (broadcastInDim S1x4 ![] bcast_S_S1x4 (constantI S_ 32 0#32))) (addi x1 (broadcastInDim S1x4 ![] bcast_S_S1x4 (constantI S_ 32 8#32))) x1)))
    (broadcastInDim S12288x9x1 ![0, 1] bcast_S12288x9_S12288x9x1_0_1 (select (cmpi .slt x2 (broadcastInDim S12288x9 ![] bcast_S_S12288x9 (constantI S_ 32 0#32))) (addi x2 (broadcastInDim S12288x9 ![] bcast_S_S12288x9 (constantI S_ 32 12288#32))) x2))

/-- The rows the region finds are the gathered tensor of the launch arguments, flattened. -/
theorem rows_eq (c : Dev nD) :
    rowsArr m c = shapeCast S196608x144 (gathered (m ((c : Thread nD τ).loc main_arg0)) (m ((c : Thread nD τ).loc main_arg1)) (m ((c : Thread nD τ).loc main_arg2))) shapeCasts_S1x4x4x12288x9x16_S196608x144 := by
  show StableHlo.after hostOps0 (fun b => m (c, b)) (Proc.devRef .tc main_v14) = _
  after_results
  rfl

/-- The host line after the region views the output array as the result shape. -/
theorem tail_eq (c : Dev nD) :
    Pipeline.afterTail₀ cfgs (dats m) 0 (V0 m) [hostOps1] c main_v16
      = shapeCast S1x4x4x196608x64 ((dats m 0 c).arrAt 3 cfg0.N) shapeCasts_S196608x1024_S1x4x4x196608x64 := by
  unfold Pipeline.afterTail₀
  show StableHlo.after hostOps1 _ (Proc.devRef .tc main_v16) = _
  after_results
  have hA : Pipeline.withArrays (cfgs 0).spec c (V0 m c) (fun w => (dats m 0 c).arrAt w (cfgs 0).N) (Proc.devRef .tc main_v15)
      = (dats m 0 c).arrAt 3 cfg0.N :=
    Pipeline.withArrays_arr spec0 launch0.win.arr_inj c _ _ 3
  rw [hA]
  rfl

/-- THE RESULT the kernel program leaves: the patch MLP of the gathered tensor of the launch arguments. -/
theorem result_eq (c : Dev nD) :
    Pipeline.afterTail₀ cfgs (dats m) 0 (V0 m) [hostOps1] c main_v16
      = mlp (gathered (m ((c : Thread nD τ).loc main_arg0)) (m ((c : Thread nD τ).loc main_arg1)) (m ((c : Thread nD τ).loc main_arg2)))
          (m ((c : Thread nD τ).loc main_arg3)) (m ((c : Thread nD τ).loc main_arg4)) := by
  rw [tail_eq, final, rows_eq]
  have e3 : wArr m c = m ((c : Thread nD τ).loc main_arg3) := V_main_arg3 m c
  have e4 : bArr m c = m ((c : Thread nD τ).loc main_arg4) := V_main_arg4 m c
  rw [e3, e4]
  rfl

/-- The run: every weakly fair execution terminates with the result at the patch MLP of the gathered tensor and
    the five arguments unchanged. -/
theorem run : θ_run defs (onTc (τ := τ) (main (F := Ideal))) ⟨m, fun _ => 0, ρ⟩ fun r => ∀ c : Dev nD,
      r.2.mem ((c.tc : Thread nD τ).loc main_v16)
        = mlp (gathered (m ((c : Thread nD τ).loc main_arg0)) (m ((c : Thread nD τ).loc main_arg1)) (m ((c : Thread nD τ).loc main_arg2)))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v16 (Pipeline.mem_restRefs_of main_v16 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩)
    (run_main m ρ)

end Cert.KernelIdeal.ArrayValue

end
-- ==== Proof.LibReshape.lean ====
/-
  Two reshapes of one array. A reshape keeps the elements in row-major order, so two reshapes of the same array,
  to whatever shapes, hold the same element wherever their indices have the same row-major position.
-/
import Idealize.ShloMosaic.Lib.Pipeline.Value

namespace Cert.LibReshape

open Idealize.ShloMosaic

/-- Two shape casts of one array agree at any two indices with the same row-major position: each reads the
    operand at the index of that position. -/
theorem shapeCast_eq_shapeCast_of_rowMajor {α : Type} {s t u : Shape} (x : s.Idx → α) (h : s.ShapeCasts t) (h' : s.ShapeCasts u)
    (j : t.Idx) (j' : u.Idx) (e : (t.rowMajor j).val = (u.rowMajor j').val) :
    shapeCast t x h j = shapeCast u x h' j' :=
  shapeCast_apply x h j (Shape.reshapeEquiv h' j') ((Shape.rowMajor_reshapeEquiv h' j').trans e.symm)

/-- A shape cast of a shape cast is the shape cast to the last shape: the middle shape leaves no trace. -/
theorem shapeCast_comp {α : Type} {s t u : Shape} (x : s.Idx → α) (h : s.ShapeCasts t) (h' : t.ShapeCasts u) (h'' : s.ShapeCasts u) :
    shapeCast u (shapeCast t x h) h' = shapeCast u x h'' :=
  funext fun j => congrArg x (Shape.reshapeEquiv_eq_of_rowMajor h
    ((Shape.rowMajor_reshapeEquiv h'' j).trans (Shape.rowMajor_reshapeEquiv h' j).symm))

end Cert.LibReshape
-- ==== Proof.RefStages.lean ====
/-
  The reference at an index. The reference flattens the gathered tensor to [1, 4, 4, 12288, 144], contracts its last
  axis with W (one row-by-matrix product per batch, variable, time and cell), adds the bias over the last axis and views
  the result as [1, 4, 4, 196608, 64]. Every reshape keeps the row-major order, so the element at a result index of
  row-major position n is the entry (n / 1024, n % 1024) of rows · W + bias, where rows is the gathered tensor
  flattened to 196608 × 144: the row (batch, variable, time, cell) of the contraction is matrix row n / 1024.
-/
import proofs.«108473_j24103356465172_1_alg».proof.Proof.Gen.ReferenceIdeal.Run
import proofs.«108473_j24103356465172_1_alg».proof.Proof.Gen.ReferenceIdeal.Read
import proofs.«108473_j24103356465172_1_alg».proof.Proof.PatchMlpSpec
import proofs.«108473_j24103356465172_1_alg».proof.Proof.LibReshape

noncomputable section

namespace Cert.ReferenceIdeal.RefValue

open Cert.ReferenceIdeal Cert.ReferenceIdeal.Gen Cert.ReferenceIdeal.Read Idealize.ShloMosaic Idealize.ShloMosaic.ValueIdx
open Cert.PatchMlp

/-- THE REFERENCE'S RESULT is the patch MLP of its gathered tensor, the weights and the bias. -/
theorem result_eq (x0 : (⟨S8x4x12288x16, .f32⟩ : BufTy).Contents (Elt Ideal)) (x1 : (⟨S1x4, .i32⟩ : BufTy).Contents (Elt Ideal))
    (x2 : (⟨S12288x9, .i32⟩ : BufTy).Contents (Elt Ideal)) (x3 : (⟨S144x1024, .f32⟩ : BufTy).Contents (Elt Ideal))
    (x4 : (⟨S1024, .f32⟩ : BufTy).Contents (Elt Ideal)) :
    val_main_v19 (F := Ideal) x0 x1 x2 x3 x4 = mlp (val_main_v13 (F := Ideal) x0 x1 x2) x3 x4 := by
  funext i
  have h0 : (i 0).val < 1 := (i 0).isLt
  have h1 : (i 1).val < 4 := (i 1).isLt
  have h2 : (i 2).val < 4 := (i 2).isLt
  have h3 : (i 3).val < 196608 := (i 3).isLt
  have h4 : (i 4).val < 64 := (i 4).isLt
  rw [mlp_apply, val_main_v19_apply, val_main_v18_apply, val_main_v15_apply, val_main_v17_apply, val_main_v16_apply]
  show (∑ k : Fin 144, val_main_v14 (F := Ideal) x0 x1 x2 (lidx_main_v15 (idx_main_v19 i) k) * x3 (ridx_main_v15 (idx_main_v19 i) k))
      + x4 (idx_main_v16 (idx_main_v17 (idx_main_v19 i))) = _
  have hcol : idx_main_v16 (idx_main_v17 (idx_main_v19 i)) = (ix1 (colOf i) : S1024.Idx) := by
    funext a; apply Fin.ext
    match a with
    | ⟨0, _⟩ => rfl
  have hw : ∀ k : Fin 144, ridx_main_v15 (idx_main_v19 i) k = (ix2 k (colOf i) : S144x1024.Idx) := fun k => by
    funext a; apply Fin.ext
    match a with
    | ⟨0, _⟩ => rfl
    | ⟨1, _⟩ => rfl
  have hx : ∀ k : Fin 144, val_main_v14 (F := Ideal) x0 x1 x2 (lidx_main_v15 (idx_main_v19 i) k)
      = shapeCast SRows (val_main_v13 (F := Ideal) x0 x1 x2) gathered_rows (ix2 (rowOf i) k) := fun k => by
    unfold val_main_v14
    refine Cert.LibReshape.shapeCast_eq_shapeCast_of_rowMajor _ _ _ _ _ ?_
    rw [Shape.rowMajor_val_five, Shape.rowMajor_val_two]
    show ((((0 * 4 + pos i / 50331648 % 4) * 4 + pos i / 12582912 % 4) * 12288 + pos i / 1024 % 12288) * 144 + k.val)
      = pos i / 1024 * 144 + k.val
    have := pos_lt i
    omega
  rw [hcol]
  refine congrArg (· + x4 (ix1 (colOf i))) (Finset.sum_congr rfl fun k _ => ?_)
  rw [hx k, hw k]

end Cert.ReferenceIdeal.RefValue

end
-- ==== Proof.lean ====
/-
  The patch MLP of a message-passing embedder: for each (batch, variable, time, cell) the 9 neighbours' 16 channels,
  144 numbers, are mapped to 1024 by one dense layer, and the [196608, 1024] result is viewed as
  [1, 4, 4, 196608, 64].

  Both programs start with the same host lines: select 4 of the 8 variables' embeddings, gather each cell's
  neighbours. The kernel program flattens the gathered tensor to a 196608 × 144 matrix, multiplies it by W row block
  by row block (96 blocks of 2048 rows, each block's product taken in one piece, the operands cast to bf16 first) and
  adds the bias; the reference contracts the last axis of the unflattened tensor with W and adds the bias. Over the
  extended reals the casts are identities and each side's entry is the same sum of 144 products plus the bias, so the
  two results agree element by element: both are `Cert.PatchMlp.mlp` of the gathered tensor. No law that needs finite
  operands is used (a sum of products is compared with the same sum of the same products), so the precondition is
  never opened.

  The frames of the two kernel programs are the generated ones; the reference's is its generated run with the result
  dropped; the idealization rewrote nothing.
-/
import proofs.«108473_j24103356465172_1_alg».proof.Defs
import proofs.«108473_j24103356465172_1_alg».proof.Proof.Gen.Kernel
import proofs.«108473_j24103356465172_1_alg».proof.Proof.Gen.Kernel.Skeleton
import proofs.«108473_j24103356465172_1_alg».proof.Proof.Gen.Kernel.Launch
import proofs.«108473_j24103356465172_1_alg».proof.Proof.Gen.Kernel.Points
import proofs.«108473_j24103356465172_1_alg».proof.Proof.Gen.Kernel.Frame
import proofs.«108473_j24103356465172_1_alg».proof.Proof.Gen.KernelIdeal
import proofs.«108473_j24103356465172_1_alg».proof.Proof.Gen.KernelIdeal.Skeleton
import proofs.«108473_j24103356465172_1_alg».proof.Proof.Gen.KernelIdeal.Launch
import proofs.«108473_j24103356465172_1_alg».proof.Proof.Gen.KernelIdeal.Points
import proofs.«108473_j24103356465172_1_alg».proof.Proof.Gen.KernelIdeal.Frame
import proofs.«108473_j24103356465172_1_alg».proof.Proof.Gen.ReferenceIdeal
import proofs.«108473_j24103356465172_1_alg».proof.Proof.Gen.ReferenceIdeal.Run
import proofs.«108473_j24103356465172_1_alg».proof.Proof.Gen.ReferenceIdeal.Read
import proofs.«108473_j24103356465172_1_alg».proof.Proof.Gen.Pre_finite_inputs
import proofs.«108473_j24103356465172_1_alg».proof.Proof.KernelRun
import proofs.«108473_j24103356465172_1_alg».proof.Proof.RefStages
import Idealize.ShloMosaic.Adequacy
import Idealize.ShloMosaic.Init

noncomputable section

namespace Cert.Proof

open Idealize.ShloMosaic Idealize.SL.Sem

/-- The two programs gather the same tensor: their host lines before the product are the same operations with the
    same dimension numbers. -/
theorem gathered_eq (x0 : (⟨Cert.ReferenceIdeal.S8x4x12288x16, .f32⟩ : BufTy).Contents (Elt Ideal))
    (x1 : (⟨Cert.ReferenceIdeal.S1x4, .i32⟩ : BufTy).Contents (Elt Ideal)) (x2 : (⟨Cert.ReferenceIdeal.S12288x9, .i32⟩ : BufTy).Contents (Elt Ideal)) :
    Cert.ReferenceIdeal.Read.val_main_v13 (F := Ideal) x0 x1 x2 = Cert.KernelIdeal.ArrayValue.gathered x0 x1 x2 := rfl

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the patch MLP of the one gathered tensor. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, gathered_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
